-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x32 : S_.BroadcastsInDim S1x32 (![] : Fin 0 → Fin S1x32.rank)
  reducesTo_S1x32_S_d0_1 : S1x32.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_

variable [Facts]

def fn_part2 {F : FTy → Type} [FloatOps F] (main_arg9 : FVec F S64x32 .f32) (main_arg10 : FVec F S64 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : FVec F S800000x64 .f32) (main_arg2 : FVec F S1x32 .f32) (main_arg3 : IVec S800000 32) (main_arg4 : IVec S800000 32) (main_arg5 : FVec F S64x128 .f32) (main_arg6 : FVec F S64 .f32) (main_arg7 : FVec F S64x64 .f32) (main_arg8 : FVec F S64 .f32) (main_arg9 : FVec F S64x32 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S8000x64 : Shape := ⟨2, ![8000, 64]⟩
abbrev S32x64 : Shape := ⟨2, ![32, 64]⟩
abbrev S_ : Shape := ⟨0, ![]⟩
abbrev S800000x1 : Shape := ⟨2, ![800000, 1]⟩
abbrev S50000x192 : Shape := ⟨2, ![50000, 192]⟩
abbrev S5000x192 : Shape := ⟨2, ![5000, 192]⟩
abbrev S800000x192 : Shape := ⟨2, ![800000, 192]⟩
abbrev S8000x192 : Shape := ⟨2, ![8000, 192]⟩

abbrev nBuf : Space → Nat
  | .hbm => 65
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S1x32, .f32⟩
  | .hbm, ⟨3, _⟩ => ⟨S800000, .i32⟩
  | .hbm, ⟨4, _⟩ => ⟨S800000, .i32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S128x64, .f32⟩
  | .hbm, ⟨12, _⟩ => ⟨S1x64, .f32⟩
  | .hbm, ⟨13, _⟩ => ⟨S50000x64, .f32⟩
  | .hbm, ⟨14, _⟩ => ⟨S64x64, .f32⟩
  | .hbm, ⟨15, _⟩ => ⟨S1x64, .f32⟩
  | .hbm, ⟨16, _⟩ => ⟨S800000x64, .f32⟩
  | .hbm, ⟨17, _⟩ => ⟨S32x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S_, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S800000x64, .f32⟩
  | .hbm, ⟨63, _⟩ => ⟨S50000x192, .f32⟩
  | .hbm, ⟨64, _⟩ => ⟨S800000x192, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S64x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S5000x192, .f32⟩
  | .local _ .vmem, ⟨18, _⟩ => ⟨S5000x192, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S1x64, .f32⟩
  | .local _ .vmem, ⟨24, _⟩ => ⟨S8000x192, .f32⟩
  | .local _ .vmem, ⟨25, _⟩ => ⟨S8000x192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x192 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  transposes_S64x64_S64x64_1_0 : S64x64.Transposes [1, 0] S64x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8000x64 : S1x64.Broadcasts S8000x64
  transposes_S64x32_S32x64_1_0 : S64x32.Transposes [1, 0] S32x64
  bcast_S64_S1x64_1 : S64.BroadcastsInDim S1x64 (![1] : Fin 1 → Fin S1x64.rank)
  bcast_S_S1x64 : S_.BroadcastsInDim S1x64 (![] : Fin 0 → Fin S1x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S5000x64_S5000x64 : S5000x64.ShapeCasts S5000x64
  concatenates_S5000x64_S5000x64_S5000x64_S5000x192_d1 : Shape.Concatenates [S5000x64, S5000x64, S5000x64] S5000x192 1
  inb_S5000x192_S5000x192_0_0 : ∀ a, (![0, 0] : Fin 2 → Nat) a + S5000x192.size a ≤ S5000x192.size a
  h_S5000x192 : 0 < S5000x192.numel
  shapeCasts_S8000x64_S8000x64 : S8000x64.ShapeCasts S8000x64
  concatenates_S8000x64_S8000x64_S8000x64_S8000x192_d1 : Shape.Concatenates [S8000x64, S8000x64, S8000x64] S8000x192 1
  inb_S8000x192_S8000x192_0_0 : ∀ a, (![0, 0] : Fin 2 → Nat) a + S8000x192.size a ≤ S8000x192.size a
  h_S8000x192 : 0 < S8000x192.numel
  dot_S5000x128_S128x64_S5000x64_1_0_0_1_n_n_wf : DotDims.WF S5000x128 S128x64 S5000x64 [1] [0] [0] [1] [] []
  dot_S8000x64_S64x64_S8000x64_1_0_0_1_n_n_wf : DotDims.WF S8000x64 S64x64 S8000x64 [1] [0] [0] [1] [] []
  dot_S1x32_S32x64_S1x64_1_0_0_1_n_n_wf : DotDims.WF S1x32 S32x64 S1x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .f32 = 32 ∨ (Rect.block (s := S800000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x192.size a ≤ S50000x192.size a
  hwx2_3 : ∀ i : grid2.Coords, EltTy.bits .f32 = 32 ∨ (Rect.block (s := S50000x192) S5000x192.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S800000x64.size a
  hwx3_1 : ∀ i : grid3.Coords, EltTy.bits .f32 = 32 ∨ (Rect.block (s := S800000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x192.size a ≤ S800000x192.size a
  hwx3_3 : ∀ i : grid3.Coords, EltTy.bits .f32 = 32 ∨ (Rect.block (s := S800000x192) S8000x192.size (cc3_transform_3 i) (hinb3_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S8000x192.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S1x32 : Shape := ⟨2, ![1, 32]⟩
abbrev S800000 : Shape := ⟨1, ![800000]⟩
abbrev S64x128 : Shape := ⟨2, ![64, 128]⟩
abbrev S64 : Shape := ⟨1, ![64]⟩
abbrev S64x64 : Shape := ⟨2, ![64, 64]⟩
abbrev S64x32 : Shape := ⟨2, ![64, 32]⟩
abbrev S128x64 : Shape := ⟨2, ![128, 64]⟩
abbrev S50000x64 : Shape := ⟨2, ![50000, 64]⟩
abbrev S1x64 : Shape := ⟨2, ![1, 64]⟩
abbrev S_ : Shape := ⟨0, ![]⟩
abbrev S32x64 : Shape := ⟨2, ![32, 64]⟩
abbrev S800000x1 : Shape := ⟨2, ![800000, 1]⟩
abbrev S50000x192 : Shape := ⟨2, ![50000, 192]⟩
abbrev S800000x192 : Shape := ⟨2, ![800000, 192]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S1x32, .f32⟩
  | .hbm, ⟨3, _⟩ => ⟨S800000, .i32⟩
  | .hbm, ⟨4, _⟩ => ⟨S800000, .i32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64, .f32⟩
  | .hbm, ⟨11, _⟩ => ⟨S128x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S_, .f32⟩
  | .hbm, ⟨17, _⟩ => ⟨S50000x64, .f32⟩
  | .hbm, ⟨18, _⟩ => ⟨S50000x64, .f32⟩
  | .hbm, ⟨19, _⟩ => ⟨S64x64, .f32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S800000x64, .f32⟩
  | .hbm, ⟨26, _⟩ => ⟨S800000x64, .f32⟩
  | .hbm, ⟨27, _⟩ => ⟨S32x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S_, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S50000x64, .f32⟩
  | .hbm, ⟨54, _⟩ => ⟨S50000x64, .f32⟩
  | .hbm, ⟨55, _⟩ => ⟨S50000x192, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x64, .f32⟩
  | .hbm, ⟨75, _⟩ => ⟨S800000x64, .f32⟩
  | .hbm, ⟨76, _⟩ => ⟨S800000x192, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_3 : Ref sig .tc := ⟨.hbm, 56, rfl⟩
abbrev main_v34 : Ref sig .tc := ⟨.hbm, 57, rfl⟩
abbrev main_v35 : Ref sig .tc := ⟨.hbm, 58, rfl⟩
abbrev main_c_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S64x32_S32x64_1_0 : S64x32.Transposes [1, 0] S32x64
  bcast_S_S1x64 : S_.BroadcastsInDim S1x64 (![] : Fin 0 → Fin S1x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  concatenates_S800000x64_S800000x64_S800000x64_S800000x192_d1 : Shape.Concatenates [S800000x64, S800000x64, S800000x64] S800000x192 1
  dot_S50000x128_S128x64_S50000x64_1_0_0_1_n_n_wf : DotDims.WF S50000x128 S128x64 S50000x64 [1] [0] [0] [1] [] []
  dot_S800000x64_S64x64_S800000x64_1_0_0_1_n_n_wf : DotDims.WF S800000x64 S64x64 S800000x64 [1] [0] [0] [1] [] []
  dot_S1x32_S32x64_S1x64_1_0_0_1_n_n_wf : DotDims.WF S1x32 S32x64 S1x64 [1] [0] [0] [1] [] []
  scatter_S50000x64_S800000x1_S800000x64_1_0_0_1_wf : ScatterDims.WF S50000x64 S800000x1 S800000x64 [1] [0] [0] 1
  gather_S50000x64_S800000x1_S800000x64_1_0_n_n_0_1_164_wf : GatherDims.WF S50000x64 S800000x1 S800000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.RefRead.lean ====
/-
  The reference program read back: its run (every result at the composed term of the arguments) and its
  operations read one at a time at an index.  This module only gathers the two generated modules; the
  statements that use them live in the modules that import it.
-/
import proofs.«175936_j18451179504039_1_alg».proof.Proof.Gen.ReferenceIdeal.Run
import proofs.«175936_j18451179504039_1_alg».proof.Proof.Gen.ReferenceIdeal.Read
-- ==== Proof.RegionSpec.lean ====
/-
  The common specification of the two programs' stages, stated over the reference's stage functions.

  * A linear layer with bias and rectification, index by index: row `r`, column `j` of the result is
    `max (∑ k, x[r,k] · wt[k,j] + b[0,j]) 0` on the extended reals.  The reference's node and edge embeddings are this
    function of the arguments (its matrix product read as a sum, its two broadcasts of the bias read at an index).
  * The three-piece join along the columns: two arrays of 64 columns and a row of 64 columns repeated on every row.
    The reference's two results are this join of its stages.
-/
import proofs.«175936_j18451179504039_1_alg».proof.Proof.RefRead
import Idealize.ShloMosaic.PureOps.Ideal.Laws
import Idealize.ShloMosaic.Lib.ValueIdx

noncomputable section

namespace Cert.Spec

open Cert.ReferenceIdeal Cert.ReferenceIdeal.Gen Cert.ReferenceIdeal.Read Idealize.ShloMosaic Idealize.ShloMosaic.TcCoe

/-- The node layer: `max (∑ k, x[r,k] · wt[k,j] + b[0,j]) 0` at row `r`, column `j`. -/
def linreluN (x : FVec Ideal S50000x128 .f32) (wt : FVec Ideal S128x64 .f32) (b2 : FVec Ideal S1x64 .f32) :
    FVec Ideal S50000x64 .f32 :=
  fun i => max ((∑ k : Fin 128, x (lidx_main_v1 i k) * wt (ridx_main_v1 i k)) + b2 (idx_main_v3 i))
    (Ideal.ofBits .f32 0x00000000#32)

/-- The edge layer: the same function at 800000 rows and 64 contracted columns. -/
def linreluE (x : FVec Ideal S800000x64 .f32) (wt : FVec Ideal S64x64 .f32) (b2 : FVec Ideal S1x64 .f32) :
    FVec Ideal S800000x64 .f32 :=
  fun i => max ((∑ k : Fin 64, x (lidx_main_v7 i k) * wt (ridx_main_v7 i k)) + b2 (idx_main_v9 i))
    (Ideal.ofBits .f32 0x00000000#32)

/-- The reference's node embedding is the node layer of the features, the transposed weights and the bias as a row. -/
theorem nodeEmb_eq (x0 : FVec Ideal S50000x128 .f32) (x5 : FVec Ideal S64x128 .f32) (x6 : FVec Ideal S64 .f32) :
    val_main_v5 (F := Ideal) x0 x5 x6 = linreluN x0 (val_main_v0 (F := Ideal) x5) (val_main_v2 (F := Ideal) x6) := by
  funext i
  rw [val_main_v5_apply, val_main_v4_apply, val_main_v1_apply, val_main_v3_apply, val_main_call0_v0_apply,
    val_main_call0_cst_apply]
  rfl

/-- The reference's edge embedding is the edge layer of the features, the transposed weights and the bias as a row. -/
theorem edgeEmb_eq (x1 : FVec Ideal S800000x64 .f32) (x7 : FVec Ideal S64x64 .f32) (x8 : FVec Ideal S64 .f32) :
    val_main_v11 (F := Ideal) x1 x7 x8 = linreluE x1 (val_main_v6 (F := Ideal) x7) (val_main_v8 (F := Ideal) x8) := by
  funext i
  rw [val_main_v11_apply, val_main_v10_apply, val_main_v7_apply, val_main_v9_apply, val_main_call1_v0_apply,
    val_main_call1_cst_apply]
  rfl

open Idealize.ShloMosaic.ValueIdx in
/-- The node layer at explicit coordinates. -/
theorem linreluN_apply (x : FVec Ideal S50000x128 .f32) (wt : FVec Ideal S128x64 .f32) (b2 : FVec Ideal S1x64 .f32)
    (r : Fin 50000) (q : Fin 64) :
    linreluN x wt b2 (ix2 r q)
      = max ((∑ k : Fin 128, x (ix2 r k) * wt (ix2 k q)) + b2 (ix2 (0 : Fin 1) q)) (Ideal.ofBits .f32 0x00000000#32) := by
  have el : ∀ k : Fin 128, lidx_main_v1 (ix2 r q) k = ix2 r k := fun k => funext fun a => by
    match a with
    | ⟨0, _⟩ => rfl
    | ⟨1, _⟩ => rfl
  have er : ∀ k : Fin 128, ridx_main_v1 (ix2 r q) k = ix2 k q := fun k => funext fun a => by
    match a with
    | ⟨0, _⟩ => rfl
    | ⟨1, _⟩ => rfl
  have eb : idx_main_v3 (ix2 r q) = ix2 (0 : Fin 1) q := funext fun a => by
    match a with
    | ⟨0, _⟩ => rfl
    | ⟨1, _⟩ => rfl
  unfold linreluN
  simp only [el, er, eb]

open Idealize.ShloMosaic.ValueIdx in
/-- The edge layer at explicit coordinates. -/
theorem linreluE_apply (x : FVec Ideal S800000x64 .f32) (wt : FVec Ideal S64x64 .f32) (b2 : FVec Ideal S1x64 .f32)
    (r : Fin 800000) (q : Fin 64) :
    linreluE x wt b2 (ix2 r q)
      = max ((∑ k : Fin 64, x (ix2 r k) * wt (ix2 k q)) + b2 (ix2 (0 : Fin 1) q)) (Ideal.ofBits .f32 0x00000000#32) := by
  have el : ∀ k : Fin 64, lidx_main_v7 (ix2 r q) k = ix2 r k := fun k => funext fun a => by
    match a with
    | ⟨0, _⟩ => rfl
    | ⟨1, _⟩ => rfl
  have er : ∀ k : Fin 64, ridx_main_v7 (ix2 r q) k = ix2 k q := fun k => funext fun a => by
    match a with
    | ⟨0, _⟩ => rfl
    | ⟨1, _⟩ => rfl
  have eb : idx_main_v9 (ix2 r q) = ix2 (0 : Fin 1) q := funext fun a => by
    match a with
    | ⟨0, _⟩ => rfl
    | ⟨1, _⟩ => rfl
  unfold linreluE
  simp only [el, er, eb]

variable {F : FTy → Type} [FloatOps F]

/-- Two node arrays and the global row, joined along the columns: columns 0–63, 64–127, and the row on 128–191. -/
def catN (a b : FVec F S50000x64 .f32) (g : FVec F S1x64 .f32) : FVec F S50000x192 .f32 :=
  concatenate S50000x192 1 [⟨S50000x64, a⟩, ⟨S50000x64, b⟩,
    ⟨S50000x64, broadcastInDim S50000x64 ![0, 1] bcast_S1x64_S50000x64_0_1 g⟩]
    concatenates_S50000x64_S50000x64_S50000x64_S50000x192_d1

/-- The same join at the edges' 800000 rows. -/
def catE (a b : FVec F S800000x64 .f32) (g : FVec F S1x64 .f32) : FVec F S800000x192 .f32 :=
  concatenate S800000x192 1 [⟨S800000x64, a⟩, ⟨S800000x64, b⟩,
    ⟨S800000x64, broadcastInDim S800000x64 ![0, 1] bcast_S1x64_S800000x64_0_1 g⟩]
    concatenates_S800000x64_S800000x64_S800000x64_S800000x192_d1

/-- The reference's first result: node embedding, scattered edge embeddings, global embedding, joined. -/
theorem out1_eq (x0 : FVec F S50000x128 .f32) (x1 : FVec F S800000x64 .f32) (x2 : FVec F S1x32 .f32)
    (x3 x4 : IVec S800000 32) (x5 : FVec F S64x128 .f32) (x6 : FVec F S64 .f32) (x7 : FVec F S64x64 .f32)
    (x8 : FVec F S64 .f32) (x9 : FVec F S64x32 .f32) (x10 : FVec F S64 .f32) :
    val_main_v33 (F := F) x0 x1 x2 x3 x4 x5 x6 x7 x8 x9 x10
      = catN (val_main_v5 (F := F) x0 x5 x6) (val_main_v31 (F := F) x1 x3 x4 x7 x8) (val_main_v16 (F := F) x2 x9 x10) := rfl

/-- The reference's second result: edge embedding, gathered node embeddings added, global embedding, joined. -/
theorem out2_eq (x0 : FVec F S50000x128 .f32) (x1 : FVec F S800000x64 .f32) (x2 : FVec F S1x32 .f32)
    (x3 x4 : IVec S800000 32) (x5 : FVec F S64x128 .f32) (x6 : FVec F S64 .f32) (x7 : FVec F S64x64 .f32)
    (x8 : FVec F S64 .f32) (x9 : FVec F S64x32 .f32) (x10 : FVec F S64 .f32) :
    val_main_v50 (F := F) x0 x1 x2 x3 x4 x5 x6 x7 x8 x9 x10
      = catE (val_main_v11 (F := F) x1 x7 x8) (val_main_v48 (F := F) x0 x3 x4 x5 x6) (val_main_v16 (F := F) x2 x9 x10) := rfl

end Cert.Spec

end
-- ==== Proof.LinRelu0.lean ====
/-
  The node layer's region, read as ONE array: after the grid's ten points the result array holds, at row `r` and
  column `j`, `max (∑ k, x[r,k] · wt[k,j] + b[0,j]) 0` of the arrays the region was entered with.

  Point `t` loads rows `5000·t … 5000·t + 4999` of the features, the whole transposed weights and the whole bias row,
  multiplies, adds the bias row to every row and rectifies; what it writes back is rows `5000·t …` of the result. The
  matrix product into a zero accumulator is the plain sum over the contracted column (on the extended reals `0 + s = s`),
  and narrowing the operands' float format changes nothing. The ten row blocks tile the array, so the array is that
  function everywhere.
-/
import proofs.«175936_j18451179504039_1_alg».proof.Proof.Gen.KernelIdeal.Frame
import proofs.«175936_j18451179504039_1_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeLayer

open Cert.KernelIdeal Cert.KernelIdeal.Gen
open Idealize.ShloMosaic Idealize.ShloMosaic.TcCoe Idealize.SL.Sem Idealize.ShloMosaic.ValueIdx
open Idealize.ShloMosaic.Pipeline (Dat)

/-! ## The block's matrix product as a sum -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `p`, column `q` of a block's product into the zero accumulator: the sum over the contracted column. -/
theorem matmul_blk {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  show FloatOps.matmul dot_S5000x128_S128x64_S5000x64_1_0_0_1_n_n none l r (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row laid on every row of the block, read at row `p`, column `q`: the row's entry `q`. -/
theorem bias_blk (x2 : FVec Ideal S1x64 .f32) (p : Fin 5000) (q : Fin 64) :
    broadcastTo S5000x64 x2 broadcasts_S1x64_S5000x64 (ix2 p q) = x2 (ix2 (0 : Fin 1) q) := by
  refine broadcastTo_apply x2 broadcasts_S1x64_S5000x64 (ix2 p q) (ix2 (0 : Fin 1) q) ?_
  intro a
  match a with
  | ⟨0, _⟩ => show (0 : Nat) = if (1 : Nat) = 1 then 0 else _; rw [if_pos rfl]
  | ⟨1, _⟩ => show q.val = if (64 : Nat) = 1 then 0 else q.val; rw [if_neg (by decide)]

/-- The body's stored value at row `p`, column `q` of the block, from the three loaded blocks. -/
theorem pay_apply (x0 : Vec Ideal S5000x128 .f32) (x1 : Vec Ideal S128x64 .f32) (x2 : Vec Ideal S1x64 .f32)
    (p : Fin 5000) (q : Fin 64) :
    k0_pay1 x0 x1 x2 (ix2 p q)
      = max ((∑ k : Fin 128, x0 (ix2 p k) * x1 (ix2 k q)) + x2 (ix2 (0 : Fin 1) q)) (Ideal.ofBits .f32 0x00000000#32) := by
  unfold k0_pay1
  rw [shapeCast_self, shapeCast_self]
  show max (matmul (F := Ideal) dot_S5000x128_S128x64_S5000x64_1_0_0_1_n_n none (truncf .bf16 x0 bitsLt_bf16_f32) (truncf .bf16 x1 bitsLt_bf16_f32) (constant (F := Ideal) S5000x64 .f32 0x00000000#32) (ix2 p q) + broadcastTo S5000x64 x2 broadcasts_S1x64_S5000x64 (ix2 p q)) _ = _
  rw [matmul_blk, bias_blk]
  rfl

/-! ## The blocks a point loads, as rows of the arrays -/

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the features and the result move one row block per point, the weights and
    the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 10 := by have h : cfg0.N = 10 := N_0; have := t.isLt; omega

/-- Row `p` of the features' block at point `t` is row `5000·t + p` of the features. -/
theorem xblk_apply (c : Dev nD) (t : Fin cfg0.N) (p : Fin 5000) (k : Fin 128) (r : Fin 50000) (hr : r.val = 5000 * t.val + p.val) :
    (iblk0 V c 0 t : Vec Ideal S5000x128 .f32) (ix2 p k) = (V c main_arg0 : FVec Ideal S50000x128 .f32) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at any point is the whole array. -/
theorem wblk_apply (c : Dev nD) (t : Fin cfg0.N) (k : Fin 128) (q : Fin 64) :
    (iblk0 V c 1 t : Vec Ideal S128x64 .f32) (ix2 k q) = (V c main_v0 : FVec Ideal S128x64 .f32) (ix2 k q) := by
  obtain ⟨-, -, e2, e3, -⟩ := idx_facts t
  unfold iblk0
  rw [View.read_apply]
  show V c main_v0 _ = V c main_v0 _
  refine congrArg (V c main_v0) (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- The bias row's block at any point is the whole row. -/
theorem bblk_apply (c : Dev nD) (t : Fin cfg0.N) (q : Fin 64) :
    (iblk0 V c 2 t : Vec Ideal S1x64 .f32) (ix2 (0 : Fin 1) q) = (V c main_v1 : FVec Ideal S1x64 .f32) (ix2 (0 : Fin 1) q) := by
  obtain ⟨-, -, -, -, e4, e5, -⟩ := idx_facts t
  unfold iblk0
  rw [View.read_apply]
  show V c main_v1 _ = V c main_v1 _
  refine congrArg (V c main_v1) (funext fun a => Fin.ext ?_)
  match a with
  | ⟨0, _⟩ => show win0_2.index t (0 : Fin 2) * 1 + 1 * (0 : Fin 1).val = (0 : Fin 1).val; rw [e4]; rfl
  | ⟨1, _⟩ => show win0_2.index t (1 : Fin 2) * 64 + 1 * q.val = q.val; rw [e5]; omega

/-! ## What a point writes back, the cover, the array -/

/-- What point `t` writes back is block `t` of the node layer of the arrays the region was entered with. -/
theorem flushed_eq (c : Dev nD) (t : Fin cfg0.N) :
    (dat0 V c).flushed 3 t
      = ((cfg0.win 3).blk t).view.read (Elt Ideal) (Cert.Spec.linreluN (V c main_arg0) (V c main_v0) (V c main_v1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have ht := t_lt t
  obtain ⟨-, -, -, -, -, -, e6, e7⟩ := idx_facts t
  have hemb : ((cfg0.win 3).blk t).view.emb (ix2 p q) = (ix2 (⟨5000 * t.val + p.val, by omega⟩ : Fin 50000) q : S50000x64.Idx) := by
    funext a
    apply Fin.ext
    match a with
    | ⟨0, _⟩ => show win0_3.index t (0 : Fin 2) * 5000 + 1 * p.val = 5000 * t.val + p.val; rw [e6]; omega
    | ⟨1, _⟩ => show win0_3.index t (1 : Fin 2) * 64 + 1 * q.val = q.val; rw [e7]; omega
  rw [View.read_apply, hemb]
  show k0_pay1 (iblk0 V c 0 t) (iblk0 V c 1 t) (iblk0 V c 2 t) (ix2 p q) = _
  rw [pay_apply, Cert.Spec.linreluN_apply, bblk_apply V c t q]
  refine congrArg (fun s => max (s + _) _) (Finset.sum_congr rfl fun k _ => ?_)
  rw [xblk_apply V c t p k ⟨5000 * t.val + p.val, by omega⟩ rfl, wblk_apply V c t k q]

/-- An index of the result array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v2).slice (win0_3.rect t)).set ↔ _
  rw [View.set_slice_whole, Rect.mem_set_unit]
  exact Iff.rfl

/-- Every index of the result array is in some point's block: row `r` in the block of point `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts t
  have e6' : win0_3.index t (0 : Fin 2) = (i 0).val / 5000 := e6
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6']; omega
  | ⟨1, _⟩ => show win0_3.index t (1 : Fin 2) * 64 ≤ (i 1).val ∧ (i 1).val < win0_3.index t (1 : Fin 2) * 64 + 64; rw [e7]; omega

/-- THE ARRAY after the region: the node layer of the arrays the region was entered with. -/
theorem final (c : Dev nD) :
    (dat0 V c).arrAt 3 cfg0.N = Cert.Spec.linreluN (V c main_arg0) (V c main_v0) (V c main_v1) :=
  (dat0 V c).arrAt_eq_of_cover 3 _ (fun t _ => flushed_eq V c t) cover

end Cert.KernelIdeal.NodeLayer

end
-- ==== Proof.LinRelu1.lean ====
/-
  The edge layer's region, read as ONE array: after the grid's hundred points the result array holds, at row `r` and
  column `j`, `max (∑ k, x[r,k] · wt[k,j] + b[0,j]) 0` of the arrays the region was entered with.

  Point `t` loads rows `8000·t … 8000·t + 4999` of the features, the whole transposed weights and the whole bias row,
  multiplies, adds the bias row to every row and rectifies; what it writes back is rows `8000·t …` of the result. The
  matrix product into a zero accumulator is the plain sum over the contracted column (on the extended reals `0 + s = s`),
  and narrowing the operands' float format changes nothing. The hundred row blocks tile the array, so the array is that
  function everywhere.
-/
import proofs.«175936_j18451179504039_1_alg».proof.Proof.Gen.KernelIdeal.Frame
import proofs.«175936_j18451179504039_1_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeLayer

open Cert.KernelIdeal Cert.KernelIdeal.Gen
open Idealize.ShloMosaic Idealize.ShloMosaic.TcCoe Idealize.SL.Sem Idealize.ShloMosaic.ValueIdx
open Idealize.ShloMosaic.Pipeline (Dat)

/-! ## The block's matrix product as a sum -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Row `p`, column `q` of a block's product into the zero accumulator: the sum over the contracted column. -/
theorem matmul_blk {φ₁ φ₂ : FTy} (l : FVec Ideal S8000x64 φ₁) (r : FVec Ideal S64x64 φ₂) (p : Fin 8000) (q : Fin 64) :
    matmul dot_S8000x64_S64x64_S8000x64_1_0_0_1_n_n none l r (constant S8000x64 .f32 0x00000000#32) (ix2 p q)
      = ∑ k : Fin 64, l (ix2 p k) * r (ix2 k q) := by
  show FloatOps.matmul dot_S8000x64_S64x64_S8000x64_1_0_0_1_n_n none l r (constant S8000x64 .f32 0x00000000#32) (ix2 p q) = _
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The bias row laid on every row of the block, read at row `p`, column `q`: the row's entry `q`. -/
theorem bias_blk (x2 : FVec Ideal S1x64 .f32) (p : Fin 8000) (q : Fin 64) :
    broadcastTo S8000x64 x2 broadcasts_S1x64_S8000x64 (ix2 p q) = x2 (ix2 (0 : Fin 1) q) := by
  refine broadcastTo_apply x2 broadcasts_S1x64_S8000x64 (ix2 p q) (ix2 (0 : Fin 1) q) ?_
  intro a
  match a with
  | ⟨0, _⟩ => show (0 : Nat) = if (1 : Nat) = 1 then 0 else _; rw [if_pos rfl]
  | ⟨1, _⟩ => show q.val = if (64 : Nat) = 1 then 0 else q.val; rw [if_neg (by decide)]

/-- The body's stored value at row `p`, column `q` of the block, from the three loaded blocks. -/
theorem pay_apply (x0 : Vec Ideal S8000x64 .f32) (x1 : Vec Ideal S64x64 .f32) (x2 : Vec Ideal S1x64 .f32)
    (p : Fin 8000) (q : Fin 64) :
    k1_pay1 x0 x1 x2 (ix2 p q)
      = max ((∑ k : Fin 64, x0 (ix2 p k) * x1 (ix2 k q)) + x2 (ix2 (0 : Fin 1) q)) (Ideal.ofBits .f32 0x00000000#32) := by
  unfold k1_pay1
  rw [shapeCast_self, shapeCast_self]
  show max (matmul (F := Ideal) dot_S8000x64_S64x64_S8000x64_1_0_0_1_n_n none (truncf .bf16 x0 bitsLt_bf16_f32) (truncf .bf16 x1 bitsLt_bf16_f32) (constant (F := Ideal) S8000x64 .f32 0x00000000#32) (ix2 p q) + broadcastTo S8000x64 x2 broadcasts_S1x64_S8000x64 (ix2 p q)) _ = _
  rw [matmul_blk, bias_blk]
  rfl

/-! ## The blocks a point loads, as rows of the arrays -/

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the features and the result move one row block per point, the weights and
    the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 100 := by have h : cfg1.N = 100 := N_1; have := t.isLt; omega

/-- Row `p` of the features' block at point `t` is row `8000·t + p` of the features. -/
theorem xblk_apply (c : Dev nD) (t : Fin cfg1.N) (p : Fin 8000) (k : Fin 64) (r : Fin 800000) (hr : r.val = 8000 * t.val + p.val) :
    (iblk1 V c 0 t : Vec Ideal S8000x64 .f32) (ix2 p k) = (V c main_arg1 : FVec Ideal S800000x64 .f32) (ix2 r k) := by
  obtain ⟨e0, e1, -⟩ := idx_facts t
  unfold iblk1
  rw [View.read_apply]
  show V c main_arg1 _ = V c main_arg1 _
  refine congrArg (V c main_arg1) (funext fun a => Fin.ext ?_)
  match a with
  | ⟨0, _⟩ => show win1_0.index t (0 : Fin 2) * 8000 + 1 * p.val = r.val; rw [e0, hr]; omega
  | ⟨1, _⟩ => show win1_0.index t (1 : Fin 2) * 64 + 1 * k.val = k.val; rw [e1]; omega

/-- The weights' block at any point is the whole array. -/
theorem wblk_apply (c : Dev nD) (t : Fin cfg1.N) (k : Fin 64) (q : Fin 64) :
    (iblk1 V c 1 t : Vec Ideal S64x64 .f32) (ix2 k q) = (V c main_v3 : FVec Ideal S64x64 .f32) (ix2 k q) := by
  obtain ⟨-, -, e2, e3, -⟩ := idx_facts t
  unfold iblk1
  rw [View.read_apply]
  show V c main_v3 _ = V c main_v3 _
  refine congrArg (V c main_v3) (funext fun a => Fin.ext ?_)
  match a with
  | ⟨0, _⟩ => show win1_1.index t (0 : Fin 2) * 64 + 1 * k.val = k.val; rw [e2]; omega
  | ⟨1, _⟩ => show win1_1.index t (1 : Fin 2) * 64 + 1 * q.val = q.val; rw [e3]; omega

/-- The bias row's block at any point is the whole row. -/
theorem bblk_apply (c : Dev nD) (t : Fin cfg1.N) (q : Fin 64) :
    (iblk1 V c 2 t : Vec Ideal S1x64 .f32) (ix2 (0 : Fin 1) q) = (V c main_v4 : FVec Ideal S1x64 .f32) (ix2 (0 : Fin 1) q) := by
  obtain ⟨-, -, -, -, e4, e5, -⟩ := idx_facts t
  unfold iblk1
  rw [View.read_apply]
  show V c main_v4 _ = V c main_v4 _
  refine congrArg (V c main_v4) (funext fun a => Fin.ext ?_)
  match a with
  | ⟨0, _⟩ => show win1_2.index t (0 : Fin 2) * 1 + 1 * (0 : Fin 1).val = (0 : Fin 1).val; rw [e4]; rfl
  | ⟨1, _⟩ => show win1_2.index t (1 : Fin 2) * 64 + 1 * q.val = q.val; rw [e5]; omega

/-! ## What a point writes back, the cover, the array -/

/-- What point `t` writes back is block `t` of the edge layer of the arrays the region was entered with. -/
theorem flushed_eq (c : Dev nD) (t : Fin cfg1.N) :
    (dat1 V c).flushed 3 t
      = ((cfg1.win 3).blk t).view.read (Elt Ideal) (Cert.Spec.linreluE (V c main_arg1) (V c main_v3) (V c main_v4)) := by
  show (cfg1.win 3).cut (grid1.coords t) ((dat1 V c).after 3 t) = _
  rw [after1_3]
  unfold out1_3
  rw [View.canon_unit_zero hz]
  simp only [View.ld_unit_zero (S := S8000x64) hz, View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  have ht := t_lt t
  obtain ⟨-, -, -, -, -, -, e6, e7⟩ := idx_facts t
  have hemb : ((cfg1.win 3).blk t).view.emb (ix2 p q) = (ix2 (⟨8000 * t.val + p.val, by omega⟩ : Fin 800000) q : S800000x64.Idx) := by
    funext a
    apply Fin.ext
    match a with
    | ⟨0, _⟩ => show win1_3.index t (0 : Fin 2) * 8000 + 1 * p.val = 8000 * t.val + p.val; rw [e6]; omega
    | ⟨1, _⟩ => show win1_3.index t (1 : Fin 2) * 64 + 1 * q.val = q.val; rw [e7]; omega
  rw [View.read_apply, hemb]
  show k1_pay1 (iblk1 V c 0 t) (iblk1 V c 1 t) (iblk1 V c 2 t) (ix2 p q) = _
  rw [pay_apply, Cert.Spec.linreluE_apply, bblk_apply V c t q]
  refine congrArg (fun s => max (s + _) _) (Finset.sum_congr rfl fun k _ => ?_)
  rw [xblk_apply V c t p k ⟨8000 * t.val + p.val, by omega⟩ rfl, wblk_apply V c t k q]

/-- An index of the result array is in point `t`'s block iff each coordinate is in the block's range on its axis. -/
theorem mem_blk (t : Fin cfg1.N) (i : S800000x64.Idx) :
    i ∈ ((cfg1.win 3).blk t).view.set ↔ ∀ a : Fin 2, win1_3.index t a * S8000x64.size a ≤ (i a).val ∧ (i a).val < win1_3.index t a * S8000x64.size a + S8000x64.size a := by
  show i ∈ ((View.whole main_v5).slice (win1_3.rect t)).set ↔ _
  rw [View.set_slice_whole, Rect.mem_set_unit]
  exact Iff.rfl

/-- Every index of the result array is in some point's block: row `r` in the block of point `r / 8000`. -/
theorem cover (i : S800000x64.Idx) : ∃ t : Fin cfg1.N, (cfg1.win 3).flush t = true ∧ i ∈ ((cfg1.win 3).blk t).view.set := by
  have hi0 : (i 0).val < 800000 := (i 0).isLt
  have hi1 : (i 1).val < 64 := (i 1).isLt
  have hN : cfg1.N = 100 := N_1
  let t : Fin cfg1.N := ⟨(i 0).val / 8000, by rw [hN]; omega⟩
  obtain ⟨-, -, -, -, -, -, e6, e7⟩ := idx_facts t
  have e6' : win1_3.index t (0 : Fin 2) = (i 0).val / 8000 := e6
  refine ⟨t, flush1_3 t, ?_⟩
  rw [mem_blk]
  intro a
  match a with
  | ⟨0, _⟩ => show win1_3.index t (0 : Fin 2) * 8000 ≤ (i 0).val ∧ (i 0).val < win1_3.index t (0 : Fin 2) * 8000 + 8000; rw [e6']; omega
  | ⟨1, _⟩ => show win1_3.index t (1 : Fin 2) * 64 ≤ (i 1).val ∧ (i 1).val < win1_3.index t (1 : Fin 2) * 64 + 64; rw [e7]; omega

/-- THE ARRAY after the region: the edge layer of the arrays the region was entered with. -/
theorem final (c : Dev nD) :
    (dat1 V c).arrAt 3 cfg1.N = Cert.Spec.linreluE (V c main_arg1) (V c main_v3) (V c main_v4) :=
  (dat1 V c).arrAt_eq_of_cover 3 _ (fun t _ => flushed_eq V c t) cover

end Cert.KernelIdeal.EdgeLayer

end
-- ==== Proof.LibCat3.lean ====
/-
  A join of three arrays of 64 columns along the columns, read at an index: columns 0–63 are the first array's,
  64–127 the second's, 128–191 the third's, each at the same row.  Stated for any number of rows.
-/
import Idealize.ShloMosaic.Lib.Pipeline.Value
import Idealize.ShloMosaic.Lib.ValueIdx

namespace Idealize.ShloMosaic.Cat3

open Idealize.ShloMosaic Idealize.ShloMosaic.ValueIdx

variable {α : Type} {m : Nat}

/-- Columns 0–63 of the join are the first piece. -/
theorem cols_fst (h : Shape.Concatenates [(⟨2, ![m, 64]⟩ : Shape), ⟨2, ![m, 64]⟩, ⟨2, ![m, 64]⟩] ⟨2, ![m, 192]⟩ 1)
    (a b g : (⟨2, ![m, 64]⟩ : Shape).Idx → α) (p : Fin m) (q : Fin 64) (c : Fin 192) (hc : c.val = q.val) :
    concatenate ⟨2, ![m, 192]⟩ 1 [⟨⟨2, ![m, 64]⟩, a⟩, ⟨⟨2, ![m, 64]⟩, b⟩, ⟨⟨2, ![m, 64]⟩, g⟩] h (ix2 p c) = a (ix2 p q) := by
  refine concatenate_apply_piece (t := ⟨2, ![m, 192]⟩) (1 : Fin 2) [⟨⟨2, ![m, 64]⟩, a⟩, ⟨⟨2, ![m, 64]⟩, b⟩, ⟨⟨2, ![m, 64]⟩, g⟩] h (ix2 p c) 0 (by simp) ⟨2, ![m, 64]⟩ a rfl rfl 0 rfl (ix2 p q) ?_ ?_
  · intro b' hb
    match b' with
    | ⟨0, _⟩ => rfl
    | ⟨1, _⟩ => exact absurd rfl hb
  · show 0 + q.val = c.val
    omega

/-- Columns 64–127 of the join are the second piece. -/
theorem cols_snd (h : Shape.Concatenates [(⟨2, ![m, 64]⟩ : Shape), ⟨2, ![m, 64]⟩, ⟨2, ![m, 64]⟩] ⟨2, ![m, 192]⟩ 1)
    (a b g : (⟨2, ![m, 64]⟩ : Shape).Idx → α) (p : Fin m) (q : Fin 64) (c : Fin 192) (hc : c.val = 64 + q.val) :
    concatenate ⟨2, ![m, 192]⟩ 1 [⟨⟨2, ![m, 64]⟩, a⟩, ⟨⟨2, ![m, 64]⟩, b⟩, ⟨⟨2, ![m, 64]⟩, g⟩] h (ix2 p c) = b (ix2 p q) := by
  refine concatenate_apply_piece (t := ⟨2, ![m, 192]⟩) (1 : Fin 2) [⟨⟨2, ![m, 64]⟩, a⟩, ⟨⟨2, ![m, 64]⟩, b⟩, ⟨⟨2, ![m, 64]⟩, g⟩] h (ix2 p c) 1 (by simp) ⟨2, ![m, 64]⟩ b rfl rfl 64 rfl (ix2 p q) ?_ ?_
  · intro b' hb
    match b' with
    | ⟨0, _⟩ => rfl
    | ⟨1, _⟩ => exact absurd rfl hb
  · show 64 + q.val = c.val
    omega

/-- Columns 128–191 of the join are the third piece. -/
theorem cols_thd (h : Shape.Concatenates [(⟨2, ![m, 64]⟩ : Shape), ⟨2, ![m, 64]⟩, ⟨2, ![m, 64]⟩] ⟨2, ![m, 192]⟩ 1)
    (a b g : (⟨2, ![m, 64]⟩ : Shape).Idx → α) (p : Fin m) (q : Fin 64) (c : Fin 192) (hc : c.val = 128 + q.val) :
    concatenate ⟨2, ![m, 192]⟩ 1 [⟨⟨2, ![m, 64]⟩, a⟩, ⟨⟨2, ![m, 64]⟩, b⟩, ⟨⟨2, ![m, 64]⟩, g⟩] h (ix2 p c) = g (ix2 p q) := by
  refine concatenate_apply_piece (t := ⟨2, ![m, 192]⟩) (1 : Fin 2) [⟨⟨2, ![m, 64]⟩, a⟩, ⟨⟨2, ![m, 64]⟩, b⟩, ⟨⟨2, ![m, 64]⟩, g⟩] h (ix2 p c) 2 (by simp) ⟨2, ![m, 64]⟩ g rfl rfl 128 rfl (ix2 p q) ?_ ?_
  · intro b' hb
    match b' with
    | ⟨0, _⟩ => rfl
    | ⟨1, _⟩ => exact absurd rfl hb
  · show 128 + q.val = c.val
    omega

end Idealize.ShloMosaic.Cat3
-- ==== Proof.Concat2.lean ====
/-
  The node output's region, read as ONE array: after the grid's ten points the result array is the join, along the
  columns, of the two 64-column arrays the region was entered with and of the 64-entry global row repeated on every row.

  Point `t` loads rows `5000·t … 5000·t + 4999` of each of the two arrays and the whole global row, lays the row on
  every row of the block and joins the three blocks along the columns; what it writes back is rows `5000·t …` of the
  result. Read at a row and a column, a join is the piece the column falls in, at the same row; so the block of the
  join is the join of the blocks. The ten row blocks tile the array.
-/
import proofs.«175936_j18451179504039_1_alg».proof.Proof.Gen.KernelIdeal.Frame
import proofs.«175936_j18451179504039_1_alg».proof.Proof.RegionSpec
import proofs.«175936_j18451179504039_1_alg».proof.Proof.LibCat3
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.NodeJoin

open Cert.KernelIdeal Cert.KernelIdeal.Gen
open Idealize.ShloMosaic Idealize.ShloMosaic.TcCoe Idealize.SL.Sem Idealize.ShloMosaic.ValueIdx
open Idealize.ShloMosaic.Pipeline (Dat)

/-! ## The body's stored value -/

/-- The body stores the join of its two loaded blocks and of the global row laid on every row. -/
theorem pay_eq (g : Vec Ideal S1x64 .f32) (a b : Vec Ideal S5000x64 .f32) :
    k2_pay1 g a b
      = concatenate S5000x192 1 [⟨S5000x64, a⟩, ⟨S5000x64, b⟩, ⟨S5000x64, broadcastTo S5000x64 g broadcasts_S1x64_S5000x64⟩]
          concatenates_S5000x64_S5000x64_S5000x64_S5000x192_d1 := by
  unfold k2_pay1
  dsimp only
  rw [shapeCast_self a, shapeCast_self b, shapeCast_self g, shapeCast_self g]

/-- The global row laid on every row of the block, read at row `p`, column `q`: the row's entry `q`. -/
theorem row_blk (g : FVec Ideal S1x64 .f32) (p : Fin 5000) (q : Fin 64) :
    broadcastTo S5000x64 g broadcasts_S1x64_S5000x64 (ix2 p q) = g (ix2 (0 : Fin 1) q) := by
  refine broadcastTo_apply g broadcasts_S1x64_S5000x64 (ix2 p q) (ix2 (0 : Fin 1) q) ?_
  intro a
  match a with
  | ⟨0, _⟩ => show (0 : Nat) = if (1 : Nat) = 1 then 0 else _; rw [if_pos rfl]
  | ⟨1, _⟩ => show q.val = if (64 : Nat) = 1 then 0 else q.val; rw [if_neg (by decide)]

/-! ## The blocks a point loads, as rows of the arrays -/

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the two arrays and the result move one row block per point, the global row
    stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 10 := by have h : cfg2.N = 10 := N_2; have := t.isLt; omega

/-- Row `p` of the first array's block at point `t` is row `5000·t + p` of the array. -/
theorem ablk_apply (c : Dev nD) (t : Fin cfg2.N) (p : Fin 5000) (q : Fin 64) (r : Fin 50000) (hr : r.val = 5000 * t.val + p.val) :
    (iblk2 V c 0 t : Vec Ideal S5000x64 .f32) (ix2 p q) = (V c main_v2 : FVec Ideal S50000x64 .f32) (ix2 r q) := by
  obtain ⟨e0, e1, -⟩ := idx_facts t
  unfold iblk2
  rw [View.read_apply]
  show V c main_v2 _ = V c main_v2 _
  refine congrArg (V c main_v2) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- Row `p` of the second array's block at point `t` is row `5000·t + p` of the array. -/
theorem bblk_apply (c : Dev nD) (t : Fin cfg2.N) (p : Fin 5000) (q : Fin 64) (r : Fin 50000) (hr : r.val = 5000 * t.val + p.val) :
    (iblk2 V c 1 t : Vec Ideal S5000x64 .f32) (ix2 p q) = (V c main_v25 : FVec Ideal S50000x64 .f32) (ix2 r q) := by
  obtain ⟨-, -, e2, e3, -⟩ := idx_facts t
  unfold iblk2
  rw [View.read_apply]
  show V c main_v25 _ = V c main_v25 _
  refine congrArg (V c main_v25) (funext fun a => Fin.ext ?_)
  match a with
  | ⟨0, _⟩ => show win2_1.index t (0 : Fin 2) * 5000 + 1 * p.val = r.val; rw [e2, hr]; omega
  | ⟨1, _⟩ => show win2_1.index t (1 : Fin 2) * 64 + 1 * q.val = q.val; rw [e3]; omega

/-- The global row's block at any point is the whole row. -/
theorem gblk_apply (c : Dev nD) (t : Fin cfg2.N) (q : Fin 64) :
    (iblk2 V c 2 t : Vec Ideal S1x64 .f32) (ix2 (0 : Fin 1) q) = (V c main_v10 : FVec Ideal S1x64 .f32) (ix2 (0 : Fin 1) q) := by
  obtain ⟨-, -, -, -, e4, e5, -⟩ := idx_facts t
  unfold iblk2
  rw [View.read_apply]
  show V c main_v10 _ = V c main_v10 _
  refine congrArg (V c main_v10) (funext fun a => Fin.ext ?_)
  match a with
  | ⟨0, _⟩ => show win2_2.index t (0 : Fin 2) * 1 + 1 * (0 : Fin 1).val = (0 : Fin 1).val; rw [e4]; rfl
  | ⟨1, _⟩ => show win2_2.index t (1 : Fin 2) * 64 + 1 * q.val = q.val; rw [e5]; omega

/-! ## What a point writes back, the cover, the array -/

/-- What point `t` writes back is block `t` of the join of the arrays the region was entered with. -/
theorem flushed_eq (c : Dev nD) (t : Fin cfg2.N) :
    (dat2 V c).flushed 3 t
      = ((cfg2.win 3).blk t).view.read (Elt Ideal) (Cert.Spec.catN (F := Ideal) (V c main_v2) (V c main_v25) (V c main_v10)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz]
  funext j
  obtain ⟨p, cc, rfl⟩ : ∃ (p : Fin 5000) (cc : Fin 192), j = ix2 p cc := ⟨j 0, j 1, eq_ix2 j⟩
  have ht := t_lt t
  obtain ⟨-, -, -, -, -, -, e6, e7⟩ := idx_facts t
  have hemb : ((cfg2.win 3).blk t).view.emb (ix2 p cc) = (ix2 (⟨5000 * t.val + p.val, by omega⟩ : Fin 50000) cc : S50000x192.Idx) := by
    funext a
    apply Fin.ext
    match a with
    | ⟨0, _⟩ => show win2_3.index t (0 : Fin 2) * 5000 + 1 * p.val = 5000 * t.val + p.val; rw [e6]; omega
    | ⟨1, _⟩ => show win2_3.index t (1 : Fin 2) * 192 + 1 * cc.val = cc.val; rw [e7]; omega
  rw [View.read_apply, hemb]
  show k2_pay1 (iblk2 V c 2 t) (iblk2 V c 0 t) (iblk2 V c 1 t) (ix2 p cc) = _
  rw [pay_eq]
  unfold Cert.Spec.catN
  have hcc := cc.isLt
  by_cases h1 : cc.val < 64
  · rw [Cat3.cols_fst _ _ _ _ p ⟨cc.val, h1⟩ cc rfl, Cat3.cols_fst _ _ _ _ (⟨5000 * t.val + p.val, by omega⟩ : Fin 50000) ⟨cc.val, h1⟩ cc rfl]
    exact ablk_apply V c t p ⟨cc.val, h1⟩ _ rfl
  · by_cases h2 : cc.val < 128
    · rw [Cat3.cols_snd _ _ _ _ p ⟨cc.val - 64, by omega⟩ cc (by show cc.val = 64 + (cc.val - 64); omega),
        Cat3.cols_snd _ _ _ _ (⟨5000 * t.val + p.val, by omega⟩ : Fin 50000) ⟨cc.val - 64, by omega⟩ cc (by show cc.val = 64 + (cc.val - 64); omega)]
      exact bblk_apply V c t p ⟨cc.val - 64, by omega⟩ _ rfl
    · rw [Cat3.cols_thd _ _ _ _ p ⟨cc.val - 128, by omega⟩ cc (by show cc.val = 128 + (cc.val - 128); omega),
        Cat3.cols_thd _ _ _ _ (⟨5000 * t.val + p.val, by omega⟩ : Fin 50000) ⟨cc.val - 128, by omega⟩ cc (by show cc.val = 128 + (cc.val - 128); omega),
        row_blk, broadcastInDim_oneRow_apply]
      exact gblk_apply V c t ⟨cc.val - 128, by omega⟩

/-- An index of the result array is in point `t`'s block iff each coordinate is in the block's range on its axis. -/
theorem mem_blk (t : Fin cfg2.N) (i : S50000x192.Idx) :
    i ∈ ((cfg2.win 3).blk t).view.set ↔ ∀ a : Fin 2, win2_3.index t a * S5000x192.size a ≤ (i a).val ∧ (i a).val < win2_3.index t a * S5000x192.size a + S5000x192.size a := by
  show i ∈ ((View.whole main_v41).slice (win2_3.rect t)).set ↔ _
  rw [View.set_slice_whole, Rect.mem_set_unit]
  exact Iff.rfl

/-- Every index of the result array is in some point's block: row `r` in the block of point `r / 5000`. -/
theorem cover (i : S50000x192.Idx) : ∃ t : Fin cfg2.N, (cfg2.win 3).flush t = true ∧ i ∈ ((cfg2.win 3).blk t).view.set := by
  have hi0 : (i 0).val < 50000 := (i 0).isLt
  have hi1 : (i 1).val < 192 := (i 1).isLt
  have hN : cfg2.N = 10 := N_2
  let t : Fin cfg2.N := ⟨(i 0).val / 5000, by rw [hN]; omega⟩
  obtain ⟨-, -, -, -, -, -, e6, e7⟩ := idx_facts t
  have e6' : win2_3.index t (0 : Fin 2) = (i 0).val / 5000 := e6
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6']; omega
  | ⟨1, _⟩ => show win2_3.index t (1 : Fin 2) * 192 ≤ (i 1).val ∧ (i 1).val < win2_3.index t (1 : Fin 2) * 192 + 192; rw [e7]; omega

/-- THE ARRAY after the region: the join of the arrays the region was entered with. -/
theorem final (c : Dev nD) :
    (dat2 V c).arrAt 3 cfg2.N = Cert.Spec.catN (F := Ideal) (V c main_v2) (V c main_v25) (V c main_v10) :=
  (dat2 V c).arrAt_eq_of_cover 3 _ (fun t _ => flushed_eq V c t) cover

end Cert.KernelIdeal.NodeJoin

end
-- ==== Proof.Concat3.lean ====
/-
  The edge output's region, read as ONE array: after the grid's hundred points the result array is the join, along the
  columns, of the two 64-column arrays the region was entered with and of the 64-entry global row repeated on every row.

  Point `t` loads rows `8000·t … 8000·t + 4999` of each of the two arrays and the whole global row, lays the row on
  every row of the block and joins the three blocks along the columns; what it writes back is rows `8000·t …` of the
  result. Read at a row and a column, a join is the piece the column falls in, at the same row; so the block of the
  join is the join of the blocks. The hundred row blocks tile the array.
-/
import proofs.«175936_j18451179504039_1_alg».proof.Proof.Gen.KernelIdeal.Frame
import proofs.«175936_j18451179504039_1_alg».proof.Proof.RegionSpec
import proofs.«175936_j18451179504039_1_alg».proof.Proof.LibCat3
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.EdgeJoin

open Cert.KernelIdeal Cert.KernelIdeal.Gen
open Idealize.ShloMosaic Idealize.ShloMosaic.TcCoe Idealize.SL.Sem Idealize.ShloMosaic.ValueIdx
open Idealize.ShloMosaic.Pipeline (Dat)

/-! ## The body's stored value -/

/-- The body stores the join of its two loaded blocks and of the global row laid on every row. -/
theorem pay_eq (g : Vec Ideal S1x64 .f32) (a b : Vec Ideal S8000x64 .f32) :
    k3_pay1 g a b
      = concatenate S8000x192 1 [⟨S8000x64, a⟩, ⟨S8000x64, b⟩, ⟨S8000x64, broadcastTo S8000x64 g broadcasts_S1x64_S8000x64⟩]
          concatenates_S8000x64_S8000x64_S8000x64_S8000x192_d1 := by
  unfold k3_pay1
  dsimp only
  rw [shapeCast_self a, shapeCast_self b, shapeCast_self g, shapeCast_self g]

/-- The global row laid on every row of the block, read at row `p`, column `q`: the row's entry `q`. -/
theorem row_blk (g : FVec Ideal S1x64 .f32) (p : Fin 8000) (q : Fin 64) :
    broadcastTo S8000x64 g broadcasts_S1x64_S8000x64 (ix2 p q) = g (ix2 (0 : Fin 1) q) := by
  refine broadcastTo_apply g broadcasts_S1x64_S8000x64 (ix2 p q) (ix2 (0 : Fin 1) q) ?_
  intro a
  match a with
  | ⟨0, _⟩ => show (0 : Nat) = if (1 : Nat) = 1 then 0 else _; rw [if_pos rfl]
  | ⟨1, _⟩ => show q.val = if (64 : Nat) = 1 then 0 else q.val; rw [if_neg (by decide)]

/-! ## The blocks a point loads, as rows of the arrays -/

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the two arrays and the result move one row block per point, the global row
    stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem t_lt (t : Fin cfg3.N) : t.val < 100 := by have h : cfg3.N = 100 := N_3; have := t.isLt; omega

/-- Row `p` of the first array's block at point `t` is row `8000·t + p` of the array. -/
theorem ablk_apply (c : Dev nD) (t : Fin cfg3.N) (p : Fin 8000) (q : Fin 64) (r : Fin 800000) (hr : r.val = 8000 * t.val + p.val) :
    (iblk3 V c 0 t : Vec Ideal S8000x64 .f32) (ix2 p q) = (V c main_v5 : FVec Ideal S800000x64 .f32) (ix2 r q) := by
  obtain ⟨e0, e1, -⟩ := idx_facts t
  unfold iblk3
  rw [View.read_apply]
  show V c main_v5 _ = V c main_v5 _
  refine congrArg (V c main_v5) (funext fun a => Fin.ext ?_)
  match a with
  | ⟨0, _⟩ => show win3_0.index t (0 : Fin 2) * 8000 + 1 * p.val = r.val; rw [e0, hr]; omega
  | ⟨1, _⟩ => show win3_0.index t (1 : Fin 2) * 64 + 1 * q.val = q.val; rw [e1]; omega

/-- Row `p` of the second array's block at point `t` is row `8000·t + p` of the array. -/
theorem bblk_apply (c : Dev nD) (t : Fin cfg3.N) (p : Fin 8000) (q : Fin 64) (r : Fin 800000) (hr : r.val = 8000 * t.val + p.val) :
    (iblk3 V c 1 t : Vec Ideal S8000x64 .f32) (ix2 p q) = (V c main_v40 : FVec Ideal S800000x64 .f32) (ix2 r q) := by
  obtain ⟨-, -, e2, e3, -⟩ := idx_facts t
  unfold iblk3
  rw [View.read_apply]
  show V c main_v40 _ = V c main_v40 _
  refine congrArg (V c main_v40) (funext fun a => Fin.ext ?_)
  match a with
  | ⟨0, _⟩ => show win3_1.index t (0 : Fin 2) * 8000 + 1 * p.val = r.val; rw [e2, hr]; omega
  | ⟨1, _⟩ => show win3_1.index t (1 : Fin 2) * 64 + 1 * q.val = q.val; rw [e3]; omega

/-- The global row's block at any point is the whole row. -/
theorem gblk_apply (c : Dev nD) (t : Fin cfg3.N) (q : Fin 64) :
    (iblk3 V c 2 t : Vec Ideal S1x64 .f32) (ix2 (0 : Fin 1) q) = (V c main_v10 : FVec Ideal S1x64 .f32) (ix2 (0 : Fin 1) q) := by
  obtain ⟨-, -, -, -, e4, e5, -⟩ := idx_facts t
  unfold iblk3
  rw [View.read_apply]
  show V c main_v10 _ = V c main_v10 _
  refine congrArg (V c main_v10) (funext fun a => Fin.ext ?_)
  match a with
  | ⟨0, _⟩ => show win3_2.index t (0 : Fin 2) * 1 + 1 * (0 : Fin 1).val = (0 : Fin 1).val; rw [e4]; rfl
  | ⟨1, _⟩ => show win3_2.index t (1 : Fin 2) * 64 + 1 * q.val = q.val; rw [e5]; omega

/-! ## What a point writes back, the cover, the array -/

/-- What point `t` writes back is block `t` of the join of the arrays the region was entered with. -/
theorem flushed_eq (c : Dev nD) (t : Fin cfg3.N) :
    (dat3 V c).flushed 3 t
      = ((cfg3.win 3).blk t).view.read (Elt Ideal) (Cert.Spec.catE (F := Ideal) (V c main_v5) (V c main_v40) (V c main_v10)) := by
  show (cfg3.win 3).cut (grid3.coords t) ((dat3 V c).after 3 t) = _
  rw [after3_3]
  unfold out3_3
  rw [View.canon_unit_zero hz]
  simp only [View.ld_unit_zero (S := S8000x64) hz, View.ld_unit_zero (S := S1x64) hz]
  funext j
  obtain ⟨p, cc, rfl⟩ : ∃ (p : Fin 8000) (cc : Fin 192), j = ix2 p cc := ⟨j 0, j 1, eq_ix2 j⟩
  have ht := t_lt t
  obtain ⟨-, -, -, -, -, -, e6, e7⟩ := idx_facts t
  have hemb : ((cfg3.win 3).blk t).view.emb (ix2 p cc) = (ix2 (⟨8000 * t.val + p.val, by omega⟩ : Fin 800000) cc : S800000x192.Idx) := by
    funext a
    apply Fin.ext
    match a with
    | ⟨0, _⟩ => show win3_3.index t (0 : Fin 2) * 8000 + 1 * p.val = 8000 * t.val + p.val; rw [e6]; omega
    | ⟨1, _⟩ => show win3_3.index t (1 : Fin 2) * 192 + 1 * cc.val = cc.val; rw [e7]; omega
  rw [View.read_apply, hemb]
  show k3_pay1 (iblk3 V c 2 t) (iblk3 V c 0 t) (iblk3 V c 1 t) (ix2 p cc) = _
  rw [pay_eq]
  unfold Cert.Spec.catE
  have hcc := cc.isLt
  by_cases h1 : cc.val < 64
  · rw [Cat3.cols_fst _ _ _ _ p ⟨cc.val, h1⟩ cc rfl, Cat3.cols_fst _ _ _ _ (⟨8000 * t.val + p.val, by omega⟩ : Fin 800000) ⟨cc.val, h1⟩ cc rfl]
    exact ablk_apply V c t p ⟨cc.val, h1⟩ _ rfl
  · by_cases h2 : cc.val < 128
    · rw [Cat3.cols_snd _ _ _ _ p ⟨cc.val - 64, by omega⟩ cc (by show cc.val = 64 + (cc.val - 64); omega),
        Cat3.cols_snd _ _ _ _ (⟨8000 * t.val + p.val, by omega⟩ : Fin 800000) ⟨cc.val - 64, by omega⟩ cc (by show cc.val = 64 + (cc.val - 64); omega)]
      exact bblk_apply V c t p ⟨cc.val - 64, by omega⟩ _ rfl
    · rw [Cat3.cols_thd _ _ _ _ p ⟨cc.val - 128, by omega⟩ cc (by show cc.val = 128 + (cc.val - 128); omega),
        Cat3.cols_thd _ _ _ _ (⟨8000 * t.val + p.val, by omega⟩ : Fin 800000) ⟨cc.val - 128, by omega⟩ cc (by show cc.val = 128 + (cc.val - 128); omega),
        row_blk, broadcastInDim_oneRow_apply]
      exact gblk_apply V c t ⟨cc.val - 128, by omega⟩

/-- An index of the result array is in point `t`'s block iff each coordinate is in the block's range on its axis. -/
theorem mem_blk (t : Fin cfg3.N) (i : S800000x192.Idx) :
    i ∈ ((cfg3.win 3).blk t).view.set ↔ ∀ a : Fin 2, win3_3.index t a * S8000x192.size a ≤ (i a).val ∧ (i a).val < win3_3.index t a * S8000x192.size a + S8000x192.size a := by
  show i ∈ ((View.whole main_v42).slice (win3_3.rect t)).set ↔ _
  rw [View.set_slice_whole, Rect.mem_set_unit]
  exact Iff.rfl

/-- Every index of the result array is in some point's block: row `r` in the block of point `r / 8000`. -/
theorem cover (i : S800000x192.Idx) : ∃ t : Fin cfg3.N, (cfg3.win 3).flush t = true ∧ i ∈ ((cfg3.win 3).blk t).view.set := by
  have hi0 : (i 0).val < 800000 := (i 0).isLt
  have hi1 : (i 1).val < 192 := (i 1).isLt
  have hN : cfg3.N = 100 := N_3
  let t : Fin cfg3.N := ⟨(i 0).val / 8000, by rw [hN]; omega⟩
  obtain ⟨-, -, -, -, -, -, e6, e7⟩ := idx_facts t
  have e6' : win3_3.index t (0 : Fin 2) = (i 0).val / 8000 := e6
  refine ⟨t, flush3_3 t, ?_⟩
  rw [mem_blk]
  intro a
  match a with
  | ⟨0, _⟩ => show win3_3.index t (0 : Fin 2) * 8000 ≤ (i 0).val ∧ (i 0).val < win3_3.index t (0 : Fin 2) * 8000 + 8000; rw [e6']; omega
  | ⟨1, _⟩ => show win3_3.index t (1 : Fin 2) * 192 ≤ (i 1).val ∧ (i 1).val < win3_3.index t (1 : Fin 2) * 192 + 192; rw [e7]; omega

/-- THE ARRAY after the region: the join of the arrays the region was entered with. -/
theorem final (c : Dev nD) :
    (dat3 V c).arrAt 3 cfg3.N = Cert.Spec.catE (F := Ideal) (V c main_v5) (V c main_v40) (V c main_v10) :=
  (dat3 V c).arrAt_eq_of_cover 3 _ (fun t _ => flushed_eq V c t) cover

end Cert.KernelIdeal.EdgeJoin

end
-- ==== Proof.KWalk.lean ====
/-
  The idealized kernel's two result buffers after the run, as functions of the launch contents.

  The fold through @main is walked back one boundary at a time.  A host stretch leaves in each buffer it writes its
  operation's value of the operands' contents and every other buffer as it was; a region leaves in its result array the
  whole-array function of the arrays it was entered with (the layer, the join) and every other buffer as it was.  Read
  back to the launch, the first result is the join of the node layer of the arguments, the edge layer scattered twice
  into zeros, and the global layer; the second the join of the edge layer, the node layer gathered twice and added,
  and the global layer — the reference's own stages of the same arguments.
-/
import proofs.«175936_j18451179504039_1_alg».proof.Proof.Gen.KernelIdeal.Frame
import proofs.«175936_j18451179504039_1_alg».proof.Proof.RegionSpec
import proofs.«175936_j18451179504039_1_alg».proof.Proof.LinRelu0
import proofs.«175936_j18451179504039_1_alg».proof.Proof.LinRelu1
import proofs.«175936_j18451179504039_1_alg».proof.Proof.Concat2
import proofs.«175936_j18451179504039_1_alg».proof.Proof.Concat3
import Idealize.ShloMosaic.Lib.StableHlo.Run
import Idealize.ShloMosaic.Lib.Pipeline.Value
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-! ## Host stretches and untouched buffers, at any float instance -/

section AnyF

variable {F : FTy → Type} [FloatOps F]
variable (m : (ℓ : Loc nD τ sig) → Buf (Elt F) ℓ) (ρ : Dev nD → PrngReg) (c : Dev nD)

/-- A buffer the first host stretch does not write holds its launch contents when the node region is entered. -/
theorem W1_keep (b : Ref sig .tc) (h0 : b ≠ main_v0) (h1 : b ≠ main_v1) :
    W1 m ρ c (Proc.devRef .tc b) = m ((c : Thread nD τ).loc b) := by
  show StableHlo.after hostOps0 (W0 m ρ c) (Proc.devRef .tc b) = _
  dsimp only [hostOps0]
  rw [after_cons, after_cons, after_nil, reshape_result_ne (h := h1), unary_result_ne (h := h0)]

/-- … and still when the node region is left, if it is none of the region's arrays. -/
theorem W2_keep (b : Ref sig .tc) (hw : ∀ w, Pipeline.arrRef spec0 w ≠ b) (h0 : b ≠ main_v0) (h1 : b ≠ main_v1) :
    W2 m ρ c (Proc.devRef .tc b) = m ((c : Thread nD τ).loc b) :=
  (W2_of_ne m ρ c b hw).trans (W1_keep m ρ c b h0 h1)

/-- A buffer the second host stretch does not write is, when the edge region is entered, what the node region left. -/
theorem W3_step (b : Ref sig .tc) (h3 : b ≠ main_v3) (h4 : b ≠ main_v4) :
    W3 m ρ c (Proc.devRef .tc b) = W2 m ρ c (Proc.devRef .tc b) := by
  show StableHlo.after hostOps1 (W2 m ρ c) (Proc.devRef .tc b) = _
  dsimp only [hostOps1]
  rw [after_cons, after_cons, after_nil, reshape_result_ne (h := h4), unary_result_ne (h := h3)]

/-- A buffer no host operation has written and no region holds keeps its launch contents up to the edge region's exit. -/
theorem W4_keep (b : Ref sig .tc) (hw1 : ∀ w, Pipeline.arrRef spec1 w ≠ b) (h3 : b ≠ main_v3) (h4 : b ≠ main_v4)
    (hw0 : ∀ w, Pipeline.arrRef spec0 w ≠ b) (h0 : b ≠ main_v0) (h1 : b ≠ main_v1) :
    W4 m ρ c (Proc.devRef .tc b) = m ((c : Thread nD τ).loc b) :=
  (W4_of_ne m ρ c b hw1).trans ((W3_step m ρ c b h3 h4).trans (W2_keep m ρ c b hw0 h0 h1))

/-- The node region is entered with the node weights transposed. -/
theorem W1_v0 : W1 m ρ c (Proc.devRef .tc main_v0) = Cert.ReferenceIdeal.Read.val_main_v0 (F := F) (m ((c : Thread nD τ).loc main_arg5)) := by
  show StableHlo.after hostOps0 (W0 m ρ c) (Proc.devRef .tc main_v0) = _
  dsimp only [hostOps0]; after_results <;> rfl

/-- … and with the node bias recast as a one-row matrix. -/
theorem W1_v1 : W1 m ρ c (Proc.devRef .tc main_v1) = shapeCast S1x64 (m ((c : Thread nD τ).loc main_arg6)) shapeCasts_S64_S1x64 := by
  show StableHlo.after hostOps0 (W0 m ρ c) (Proc.devRef .tc main_v1) = _
  dsimp only [hostOps0]; after_results <;> rfl

/-- The edge region is entered with the edge features as launched. -/
theorem W3_arg1 : W3 m ρ c (Proc.devRef .tc main_arg1) = (m ((c : Thread nD τ).loc main_arg1)) :=
  (W3_step m ρ c main_arg1 (by decide) (by decide)).trans (W2_keep m ρ c main_arg1 (by decide) (by decide) (by decide))

/-- … with the edge weights transposed. -/
theorem W3_v3 : W3 m ρ c (Proc.devRef .tc main_v3) = Cert.ReferenceIdeal.Read.val_main_v6 (F := F) (m ((c : Thread nD τ).loc main_arg7)) :=
  (show StableHlo.after hostOps1 (W2 m ρ c) (Proc.devRef .tc main_v3) = Cert.ReferenceIdeal.Read.val_main_v6 (F := F) (W2 m ρ c (Proc.devRef .tc main_arg7)) by
    dsimp only [hostOps1]; after_results <;> rfl).trans (congrArg _ (W2_keep m ρ c main_arg7 (by decide) (by decide) (by decide)))

/-- … and with the edge bias recast as a one-row matrix. -/
theorem W3_v4 : W3 m ρ c (Proc.devRef .tc main_v4) = shapeCast S1x64 (m ((c : Thread nD τ).loc main_arg8)) shapeCasts_S64_S1x64 :=
  (show StableHlo.after hostOps1 (W2 m ρ c) (Proc.devRef .tc main_v4) = shapeCast S1x64 (W2 m ρ c (Proc.devRef .tc main_arg8)) shapeCasts_S64_S1x64 by
    dsimp only [hostOps1]; after_results <;> rfl).trans (congrArg (fun x => shapeCast S1x64 x shapeCasts_S64_S1x64) (W2_keep m ρ c main_arg8 (by decide) (by decide) (by decide)))

/-- The node region's result survives the second host stretch and the edge region. -/
theorem W4_v2 : W4 m ρ c (Proc.devRef .tc main_v2) = W2 m ρ c (Proc.devRef .tc main_v2) :=
  (W4_of_ne m ρ c main_v2 (by decide)).trans (W3_step m ρ c main_v2 (by decide) (by decide))

set_option maxHeartbeats 2000000 in
/-- The third host stretch leaves the node region's result as it was. -/
theorem W7_v2 : W7 m ρ c (Proc.devRef .tc main_v2) = W4 m ρ c (Proc.devRef .tc main_v2) := by
  show StableHlo.after hostOps2_2 (StableHlo.after hostOps2_1 (StableHlo.after hostOps2 (W4 m ρ c))) (Proc.devRef .tc main_v2) = _
  dsimp only [hostOps2_2, hostOps2_1, hostOps2]; after_results_simp

set_option maxHeartbeats 2000000 in
/-- … and the edge region's result. -/
theorem W7_v5 : W7 m ρ c (Proc.devRef .tc main_v5) = W4 m ρ c (Proc.devRef .tc main_v5) := by
  show StableHlo.after hostOps2_2 (StableHlo.after hostOps2_1 (StableHlo.after hostOps2 (W4 m ρ c))) (Proc.devRef .tc main_v5) = _
  dsimp only [hostOps2_2, hostOps2_1, hostOps2]; after_results_simp

set_option maxHeartbeats 2000000 in
/-- The global layer, computed on the host from the launch contents: the reference's stage. -/
theorem W7_v10 : W7 m ρ c (Proc.devRef .tc main_v10) = Cert.ReferenceIdeal.Read.val_main_v16 (F := F) (m ((c : Thread nD τ).loc main_arg2)) (m ((c : Thread nD τ).loc main_arg9)) (m ((c : Thread nD τ).loc main_arg10)) :=
  (show StableHlo.after hostOps2_2 (StableHlo.after hostOps2_1 (StableHlo.after hostOps2 (W4 m ρ c))) (Proc.devRef .tc main_v10)
      = Cert.ReferenceIdeal.Read.val_main_v16 (F := F) (W4 m ρ c (Proc.devRef .tc main_arg2)) (W4 m ρ c (Proc.devRef .tc main_arg9)) (W4 m ρ c (Proc.devRef .tc main_arg10)) by
    dsimp only [hostOps2_2, hostOps2_1, hostOps2]; after_results_simp <;> rfl).trans
  (by rw [W4_keep m ρ c main_arg2 (by decide) (by decide) (by decide) (by decide) (by decide) (by decide), W4_keep m ρ c main_arg9 (by decide) (by decide) (by decide) (by decide) (by decide) (by decide), W4_keep m ρ c main_arg10 (by decide) (by decide) (by decide) (by decide) (by decide) (by decide)])

set_option maxHeartbeats 2000000 in
/-- The edge region's result scattered twice into zeros, at the rows the two index arguments name: the reference's
    stage with the edge region's result in the edge embedding's place. -/
theorem W7_v25 : W7 m ρ c (Proc.devRef .tc main_v25)
    = Host.scatterAdd Cert.ReferenceIdeal.scatter_S50000x64_S800000x1_S800000x64_1_0_0_1
        (Host.scatterAdd Cert.ReferenceIdeal.scatter_S50000x64_S800000x1_S800000x64_1_0_0_1 (Cert.ReferenceIdeal.Read.val_main_v17 (F := F))
          (Cert.ReferenceIdeal.Read.val_main_v23 (F := F) (m ((c : Thread nD τ).loc main_arg3))) (W4 m ρ c (Proc.devRef .tc main_v5)))
        (Cert.ReferenceIdeal.Read.val_main_v30 (F := F) (m ((c : Thread nD τ).loc main_arg4))) (W4 m ρ c (Proc.devRef .tc main_v5)) :=
  (show StableHlo.after hostOps2_2 (StableHlo.after hostOps2_1 (StableHlo.after hostOps2 (W4 m ρ c))) (Proc.devRef .tc main_v25)
      = Host.scatterAdd Cert.ReferenceIdeal.scatter_S50000x64_S800000x1_S800000x64_1_0_0_1
        (Host.scatterAdd Cert.ReferenceIdeal.scatter_S50000x64_S800000x1_S800000x64_1_0_0_1 (Cert.ReferenceIdeal.Read.val_main_v17 (F := F))
          (Cert.ReferenceIdeal.Read.val_main_v23 (F := F) (W4 m ρ c (Proc.devRef .tc main_arg3))) (W4 m ρ c (Proc.devRef .tc main_v5)))
        (Cert.ReferenceIdeal.Read.val_main_v30 (F := F) (W4 m ρ c (Proc.devRef .tc main_arg4))) (W4 m ρ c (Proc.devRef .tc main_v5)) by
    dsimp only [hostOps2_2, hostOps2_1, hostOps2]; after_results_simp <;> rfl).trans
  (by rw [W4_keep m ρ c main_arg3 (by decide) (by decide) (by decide) (by decide) (by decide) (by decide), W4_keep m ρ c main_arg4 (by decide) (by decide) (by decide) (by decide) (by decide) (by decide)])

set_option maxHeartbeats 2000000 in
/-- The node region's result gathered at the rows the two index arguments name, the two gathers added: the
    reference's stage with the node region's result in the node embedding's place. -/
theorem W7_v40 : W7 m ρ c (Proc.devRef .tc main_v40)
    = addf (Host.gather Cert.ReferenceIdeal.gather_S50000x64_S800000x1_S800000x64_1_0_n_n_0_1_164 (W4 m ρ c (Proc.devRef .tc main_v2))
          (Cert.ReferenceIdeal.Read.val_main_v39 (F := F) (m ((c : Thread nD τ).loc main_arg3))))
        (Host.gather Cert.ReferenceIdeal.gather_S50000x64_S800000x1_S800000x64_1_0_n_n_0_1_164 (W4 m ρ c (Proc.devRef .tc main_v2))
          (Cert.ReferenceIdeal.Read.val_main_v46 (F := F) (m ((c : Thread nD τ).loc main_arg4)))) :=
  (show StableHlo.after hostOps2_2 (StableHlo.after hostOps2_1 (StableHlo.after hostOps2 (W4 m ρ c))) (Proc.devRef .tc main_v40)
      = addf (Host.gather Cert.ReferenceIdeal.gather_S50000x64_S800000x1_S800000x64_1_0_n_n_0_1_164 (W4 m ρ c (Proc.devRef .tc main_v2))
          (Cert.ReferenceIdeal.Read.val_main_v39 (F := F) (W4 m ρ c (Proc.devRef .tc main_arg3))))
        (Host.gather Cert.ReferenceIdeal.gather_S50000x64_S800000x1_S800000x64_1_0_n_n_0_1_164 (W4 m ρ c (Proc.devRef .tc main_v2))
          (Cert.ReferenceIdeal.Read.val_main_v46 (F := F) (W4 m ρ c (Proc.devRef .tc main_arg4)))) by
    dsimp only [hostOps2_2, hostOps2_1, hostOps2]; after_results_simp <;> rfl).trans
  (by rw [W4_keep m ρ c main_arg3 (by decide) (by decide) (by decide) (by decide) (by decide) (by decide), W4_keep m ρ c main_arg4 (by decide) (by decide) (by decide) (by decide) (by decide) (by decide)])

/-- The global embedding is one of the node join's inputs: the region leaves it as it found it. -/
theorem W8_v10 : W8 m ρ c (Proc.devRef .tc main_v10) = W7 m ρ c (Proc.devRef .tc main_v10) :=
  (W8_arr m ρ c 2).trans (((dat2 (V7 m ρ) c).arrAt_in 2 rfl _).trans (A_eq2 (V7 m ρ) c 2))

end AnyF

/-! ## The regions' results and the two result buffers, on the extended reals -/

variable (m : (ℓ : Loc nD τ sig) → Buf (Elt Ideal) ℓ) (ρ : Dev nD → PrngReg) (c : Dev nD)

/-- A 64-entry vector recast as a one-row matrix is the vector broadcast along the columns. -/
theorem row_eq (x : FVec Ideal S64 .f32) :
    shapeCast S1x64 x shapeCasts_S64_S1x64 = Cert.ReferenceIdeal.Read.val_main_v2 (F := Ideal) x := by
  funext i
  rw [Cert.ReferenceIdeal.Read.val_main_v2_apply]
  refine shapeCast_apply x shapeCasts_S64_S1x64 i (Cert.ReferenceIdeal.Read.idx_main_v2 i) ?_
  rw [Shape.rowMajor_val_two, Shape.rowMajor_val_one]
  have h0 : (i 0).val < 1 := (i 0).isLt
  show (i 1).val = (i 0).val * 64 + (i 1).val
  omega

/-- The node region's result is the reference's node embedding of the arguments. -/
theorem nodeEmb : W2 m ρ c (Proc.devRef .tc main_v2)
    = Cert.ReferenceIdeal.Read.val_main_v5 (F := Ideal) (m ((c : Thread nD τ).loc main_arg0)) (m ((c : Thread nD τ).loc main_arg5)) (m ((c : Thread nD τ).loc main_arg6)) := by
  rw [Cert.Spec.nodeEmb_eq]
  refine (W2_arr m ρ c 3).trans ((NodeLayer.final (V1 m ρ) c).trans ?_)
  show Cert.Spec.linreluN (W1 m ρ c (Proc.devRef .tc main_arg0)) (W1 m ρ c (Proc.devRef .tc main_v0)) (W1 m ρ c (Proc.devRef .tc main_v1)) = _
  rw [W1_keep m ρ c main_arg0 (by decide) (by decide), W1_v0 m ρ c, W1_v1 m ρ c, row_eq]

/-- The edge region's result is the reference's edge embedding of the arguments. -/
theorem edgeEmb : W4 m ρ c (Proc.devRef .tc main_v5)
    = Cert.ReferenceIdeal.Read.val_main_v11 (F := Ideal) (m ((c : Thread nD τ).loc main_arg1)) (m ((c : Thread nD τ).loc main_arg7)) (m ((c : Thread nD τ).loc main_arg8)) := by
  rw [Cert.Spec.edgeEmb_eq]
  refine (W4_arr m ρ c 3).trans ((EdgeLayer.final (V3 m ρ) c).trans ?_)
  show Cert.Spec.linreluE (W3 m ρ c (Proc.devRef .tc main_arg1)) (W3 m ρ c (Proc.devRef .tc main_v3)) (W3 m ρ c (Proc.devRef .tc main_v4)) = _
  rw [W3_arg1 m ρ c, W3_v3 m ρ c, W3_v4 m ρ c, row_eq]
  rfl

/-- THE FIRST RESULT after the run is the reference's first result of the launch contents. -/
theorem out1 : W9 m ρ c (Proc.devRef .tc main_v41)
    = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.Spec.out1_eq]
  refine (W9_of_ne m ρ c main_v41 (by decide)).trans ((W8_arr m ρ c 3).trans ((NodeJoin.final (V7 m ρ) c).trans ?_))
  show Cert.Spec.catN (F := Ideal) (W7 m ρ c (Proc.devRef .tc main_v2)) (W7 m ρ c (Proc.devRef .tc main_v25)) (W7 m ρ c (Proc.devRef .tc main_v10)) = _
  rw [W7_v2 m ρ c, W4_v2 m ρ c, nodeEmb m ρ c, W7_v25 m ρ c, edgeEmb m ρ c, W7_v10 m ρ c]
  rfl

/-- THE SECOND RESULT after the run is the reference's second result of the launch contents. -/
theorem out2 : W9 m ρ c (Proc.devRef .tc main_v42)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.Spec.out2_eq]
  refine (W9_arr m ρ c 3).trans ((EdgeJoin.final (V8 m ρ) c).trans ?_)
  show Cert.Spec.catE (F := Ideal) (W8 m ρ c (Proc.devRef .tc main_v5)) (W8 m ρ c (Proc.devRef .tc main_v40)) (W8 m ρ c (Proc.devRef .tc main_v10)) = _
  rw [W8_of_ne m ρ c main_v5 (by decide), W8_of_ne m ρ c main_v40 (by decide), W8_v10 m ρ c,
    W7_v5 m ρ c, edgeEmb m ρ c, W7_v40 m ρ c, W4_v2 m ρ c, nodeEmb m ρ c, W7_v10 m ρ c]
  rfl

end Cert.KernelIdeal.Walk

end
-- ==== Proof.lean ====
/-
  The certificate: a graph network's message-passing step as four blocked kernels around host scatter and gather, against
  its plain reference, over the extended reals.

  Both programs compute, from node features `x`, edge features `e`, a global row `g`, two index vectors and three
  linear layers: the node embedding `relu (x · Wₙᵀ + bₙ)`, the edge embedding `relu (e · Wₑᵀ + bₑ)`, the global embedding
  `relu (g · W_gᵀ + b_g)`; the edge embeddings scatter-added into zeros at both index vectors; the node embeddings gathered
  at both index vectors and added; and the two joins `[node | scattered | global]` and `[edge | gathered | global]`.
  The kernel computes the two big layers and the two joins block by block (5000 node rows, 8000 edge rows at a point),
  its matrix products on operands narrowed to a shorter float format; the host operations between are the reference's
  own.  At the ideal values narrowing is the identity, a product into a zero accumulator is the plain sum, and the blocks
  tile their arrays, so every stage of the kernel is the reference's stage of the same arguments: no law of arithmetic
  beyond `0 + s = s` is used, and the finiteness of the inputs is never opened.

  The three frames are the generated ones (the reference's is its generated run with the results dropped); the ideal
  pass rewrote nothing, so `preserves` is trivial; `algebraic` pairs the kernel's run with its results named (the
  fold through @main read back to the launch contents) with the reference's generated run.
-/
import proofs.«175936_j18451179504039_1_alg».proof.Defs
import proofs.«175936_j18451179504039_1_alg».proof.Proof.Gen.Kernel
import proofs.«175936_j18451179504039_1_alg».proof.Proof.Gen.Kernel.Skeleton
import proofs.«175936_j18451179504039_1_alg».proof.Proof.Gen.Kernel.Launch
import proofs.«175936_j18451179504039_1_alg».proof.Proof.Gen.Kernel.Points
import proofs.«175936_j18451179504039_1_alg».proof.Proof.Gen.Kernel.Frame
import proofs.«175936_j18451179504039_1_alg».proof.Proof.Gen.KernelIdeal
import proofs.«175936_j18451179504039_1_alg».proof.Proof.Gen.KernelIdeal.Skeleton
import proofs.«175936_j18451179504039_1_alg».proof.Proof.Gen.KernelIdeal.Launch
import proofs.«175936_j18451179504039_1_alg».proof.Proof.Gen.KernelIdeal.Points
import proofs.«175936_j18451179504039_1_alg».proof.Proof.Gen.KernelIdeal.Frame
import proofs.«175936_j18451179504039_1_alg».proof.Proof.Gen.ReferenceIdeal
import proofs.«175936_j18451179504039_1_alg».proof.Proof.Gen.Pre_finite_inputs
import Idealize.ShloMosaic.Adequacy
import Idealize.ShloMosaic.Init
import proofs.«175936_j18451179504039_1_alg».proof.Proof.RefRead
import proofs.«175936_j18451179504039_1_alg».proof.Proof.KRun
import proofs.«175936_j18451179504039_1_alg».proof.Proof.KWalk

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the ideal values the kernel's two result buffers end at the reference's two stages of the launch contents
    (the fold read back), and the reference's at the same stages of its own arguments, which agree. -/
theorem algebraic : Cert.algebraic_KernelIdeal_ReferenceIdeal := by
  intro m ρ m' ρ' _ hagree
  refine ⟨fun c => Cert.KernelIdeal.Gen.W9 m ρ c (Proc.devRef .tc Cert.KernelIdeal.main_v41),
    fun c => Cert.KernelIdeal.Gen.W9 m ρ c (Proc.devRef .tc Cert.KernelIdeal.main_v42), Cert.KernelIdeal.RunNamed.run_named (F := Ideal) m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10⟩ := hagree c
  refine ⟨(h c).1.trans ?_, (h c).2.1.trans ?_, (h c).2.2⟩
  · rw [Cert.ReferenceIdeal.Read.val_main_v33_eq, e0, e1, e2, e3, e4, e5, e6, e7, e8, e9, e10]
    exact (Cert.KernelIdeal.Walk.out1 m ρ c).symm
  · rw [Cert.ReferenceIdeal.Read.val_main_v50_eq, e0, e1, e2, e3, e4, e5, e6, e7, e8, e9, e10]
    exact (Cert.KernelIdeal.Walk.out2 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
